-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x50x1024x1 : Shape := ⟨4, ![1024, 50, 1024, 1]⟩
abbrev S1x1x64x1 : Shape := ⟨4, ![1, 1, 64, 1]⟩
abbrev S_ : Shape := ⟨0, ![]⟩

class Facts : Prop where
  bcast_S_S1024x50x1024x1 : S_.BroadcastsInDim S1024x50x1024x1 (![] : Fin 0 → Fin S1024x50x1024x1.rank)
  reducesTo_S1024x50x1024x1_S_d0_1_2_3 : S1024x50x1024x1.ReducesTo [0, 1, 2, 3] S_
  h_S_ : 0 < S_.numel
  bcast_S_S1x1x64x1 : S_.BroadcastsInDim S1x1x64x1 (![] : Fin 0 → Fin S1x1x64x1.rank)
  reducesTo_S1x1x64x1_S_d0_1_2_3 : S1x1x64x1.ReducesTo [0, 1, 2, 3] S_

variable [Facts]

def fn {F : FTy → Type} [FloatOps F] (main_arg0 : FVec F S1024x50x1024x1 .f32) (main_arg1 : FVec F S1x1x64x1 .f32) : IVec S_ 1 :=
  let main_v0 : FVec F S1024x50x1024x1 .f32 := Host.absf main_arg0
  let main_cst : FVec F S_ .f32 := constant S_ .f32 0x7F800000#32
  let main_v1 : FVec F S1024x50x1024x1 .f32 := broadcastInDim S1024x50x1024x1 ![] bcast_S_S1024x50x1024x1 main_cst
  let main_v2 : IVec S1024x50x1024x1 1 := cmpf .olt main_v0 main_v1
  let main_c : IVec S_ 1 := constantI S_ 1 1#1
  let main_v3 : IVec S_ 1 := (fun x v => Host.reduce IntOp.andi x v reducesTo_S1024x50x1024x1_S_d0_1_2_3 h_S_) main_v2 main_c
  let main_v4 : FVec F S1x1x64x1 .f32 := Host.absf main_arg1
  let main_cst_0 : FVec F S_ .f32 := constant S_ .f32 0x7F800000#32
  let main_v5 : FVec F S1x1x64x1 .f32 := broadcastInDim S1x1x64x1 ![] bcast_S_S1x1x64x1 main_cst_0
  let main_v6 : IVec S1x1x64x1 1 := cmpf .olt main_v4 main_v5
  let main_c_1 : IVec S_ 1 := constantI S_ 1 1#1
  let main_v7 : IVec S_ 1 := (fun x v => Host.reduce IntOp.andi x v reducesTo_S1x1x64x1_S_d0_1_2_3 h_S_) main_v6 main_c_1
  let main_v8 : IVec S_ 1 := andi main_v3 main_v7
  main_v8
-- ==== Kernel.lean ====
abbrev S1024x50x1024x1 : Shape := ⟨4, ![1024, 50, 1024, 1]⟩
abbrev S1x1x64x1 : Shape := ⟨4, ![1, 1, 64, 1]⟩
abbrev S1024x50x8x128 : Shape := ⟨4, ![1024, 50, 8, 128]⟩
abbrev S1x64 : Shape := ⟨2, ![1, 64]⟩
abbrev S1024x64 : Shape := ⟨2, ![1024, 64]⟩
abbrev S32x50x8x128 : Shape := ⟨4, ![32, 50, 8, 128]⟩
abbrev S32x64 : Shape := ⟨2, ![32, 64]⟩
abbrev S32x8x128 : Shape := ⟨3, ![32, 8, 128]⟩
abbrev S32x1024 : Shape := ⟨2, ![32, 1024]⟩
abbrev S1024x64x1 : Shape := ⟨3, ![1024, 64, 1]⟩

abbrev nBuf : Space → Nat
  | .hbm => 7
  | .vmem => 5
  | .smem => 0
  | _ => 0

abbrev bufTy : (tb : Table) → Fin (tcTables nBuf tb) → BufTy
  | .hbm, ⟨0, _⟩ => ⟨S1024x50x1024x1, .f32⟩
  | .hbm, ⟨1, _⟩ => ⟨S1x1x64x1, .f32⟩
  | .hbm, ⟨2, _⟩ => ⟨S1024x50x8x128, .f32⟩
  | .hbm, ⟨3, _⟩ => ⟨S1x64, .f32⟩
  | .hbm, ⟨4, _⟩ => ⟨S1x64, .f32⟩
  | .hbm, ⟨5, _⟩ => ⟨S1024x64, .f32⟩
  | .hbm, ⟨6, _⟩ => ⟨S1024x64x1, .f32⟩
  | .local _ .vmem, ⟨0, _⟩ => ⟨S32x50x8x128, .f32⟩
  | .local _ .vmem, ⟨1, _⟩ => ⟨S32x50x8x128, .f32⟩
  | .local _ .vmem, ⟨2, _⟩ => ⟨S1x64, .f32⟩
  | .local _ .vmem, ⟨3, _⟩ => ⟨S32x64, .f32⟩
  | .local _ .vmem, ⟨4, _⟩ => ⟨S32x64, .f32⟩
  | _, _ => ⟨S1024x50x1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x50x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024x50x1024x1_S1024x50x8x128 : S1024x50x1024x1.ShapeCasts S1024x50x8x128
  shapeCasts_S1x1x64x1_S1x64 : S1x1x64x1.ShapeCasts S1x64
  inb_S32x50x8x128_S32x50x8x128_0_0_0_0 : ∀ a, (![0, 0, 0, 0] : Fin 4 → Nat) a + S32x50x8x128.size a ≤ S32x50x8x128.size a
  h_S32x50x8x128 : 0 < S32x50x8x128.numel
  shapeCasts_S32x50x8x128_S32x50x8x128 : S32x50x8x128.ShapeCasts S32x50x8x128
  reduces_S32x50x8x128_S32x8x128 : S32x50x8x128.Reduces [1] S32x8x128
  shapeCasts_S32x8x128_S32x1024 : S32x8x128.ShapeCasts S32x1024
  iota_S1024x64_d0_w32 : S1024x64.Iotas .tc 32 [0]
  iota_S1024x64_d1_w32 : S1024x64.Iotas .tc 32 [1]
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S32x64_S32x64_0_0 : ∀ a, (![0, 0] : Fin 2 → Nat) a + S32x64.size a ≤ S32x64.size a
  h_S32x64 : 0 < S32x64.numel
  shapeCasts_S1024x64_S1024x64x1 : S1024x64.ShapeCasts S1024x64x1
  dot_S32x1024_S1024x64_S32x64_1_0_0_1_n_n_wf : DotDims.WF S32x1024 S1024x64 S32x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x50x8x128.size a ≤ S1024x50x8x128.size a
  hwx0_0 : ∀ i : grid0.Coords, EltTy.bits .f32 = 32 ∨ (Rect.block (s := S1024x50x8x128) S32x50x8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S1024x64.size a
  hwx0_2 : ∀ i : grid0.Coords, EltTy.bits .f32 = 32 ∨ (Rect.block (s := S1024x64) S32x64.size (cc0_transform_2 i) (hinb0_2 i)).WholeWords (EltTy.packing .f32)

variable [Facts₀]

def dot_S32x1024_S1024x64_S32x64_1_0_0_1_n_n : DotDims S32x1024 S1024x64 S32x64 where
  lhsContracting := [1]
  rhsContracting := [0]
  lhsNonContracting := [0]
  rhsNonContracting := [1]
  lhsBatch := []
  rhsBatch := []
  wf := dot_S32x1024_S1024x64_S32x64_1_0_0_1_n_n_wf

abbrev win0_0 : Pipeline.Window sig grid0 :=
  Pipeline.Window.ofSpec (Memref.whole main_v0) S32x50x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S32x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x50x1024x1 : Shape := ⟨4, ![1024, 50, 1024, 1]⟩
abbrev S1x1x64x1 : Shape := ⟨4, ![1, 1, 64, 1]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩
abbrev S1024x50x64x1 : Shape := ⟨4, ![1024, 50, 64, 1]⟩
abbrev S1024x64x1 : Shape := ⟨3, ![1024, 64, 1]⟩

abbrev nBuf : Space → Nat
  | .hbm => 33
  | .vmem => 0
  | .smem => 0
  | _ => 0

abbrev bufTy : (tb : Table) → Fin (tcTables nBuf tb) → BufTy
  | .hbm, ⟨0, _⟩ => ⟨S1024x50x1024x1, .f32⟩
  | .hbm, ⟨1, _⟩ => ⟨S1x1x64x1, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i1⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S64, .i32⟩
  | .hbm, ⟨10, _⟩ => ⟨S64x1, .i32⟩
  | .hbm, ⟨11, _⟩ => ⟨S1, .i32⟩
  | .hbm, ⟨12, _⟩ => ⟨S_, .i32⟩
  | .hbm, ⟨13, _⟩ => ⟨S64x1, .i32⟩
  | .hbm, ⟨14, _⟩ => ⟨S64x1, .i1⟩
  | .hbm, ⟨15, _⟩ => ⟨S1x1, .i32⟩
  | .hbm, ⟨16, _⟩ => ⟨S64x1, .i32⟩
  | .hbm, ⟨17, _⟩ => ⟨S64x1, .i1⟩
  | .hbm, ⟨18, _⟩ => ⟨S64x1, .i1⟩
  | .hbm, ⟨19, _⟩ => ⟨S_, .i1⟩
  | .hbm, ⟨20, _⟩ => ⟨S64, .i1⟩
  | .hbm, ⟨21, _⟩ => ⟨S1024x50x64x1, .f32⟩
  | .hbm, ⟨22, _⟩ => ⟨S1024x50x64x1, .i1⟩
  | .hbm, ⟨23, _⟩ => ⟨S_, .f32⟩
  | .hbm, ⟨24, _⟩ => ⟨S1024x50x64x1, .f32⟩
  | .hbm, ⟨25, _⟩ => ⟨S1024x50x64x1, .f32⟩
  | .hbm, ⟨26, _⟩ => ⟨S1024x50x64x1, .f32⟩
  | .hbm, ⟨27, _⟩ => ⟨S1024x50x64x1, .f32⟩
  | .hbm, ⟨28, _⟩ => ⟨S_, .f32⟩
  | .hbm, ⟨29, _⟩ => ⟨S1024x64x1, .f32⟩
  | .hbm, ⟨30, _⟩ => ⟨S_, .f32⟩
  | .hbm, ⟨31, _⟩ => ⟨S1024x64x1, .f32⟩
  | .hbm, ⟨32, _⟩ => ⟨S1024x64x1, .f32⟩
  | _, _ => ⟨S1024x50x1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_v5 : Ref sig .tc := ⟨.hbm, 32, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  h_S_ : 0 < S_.numel
  bcast_S64_S1024x50x64x1_2 : S64.BroadcastsInDim S1024x50x64x1 (![2] : Fin 1 → Fin S1024x50x64x1.rank)
  bcast_S_S1024x50x64x1 : S_.BroadcastsInDim S1024x50x64x1 (![] : Fin 0 → Fin S1024x50x64x1.rank)
  bcast_S1x1x64x1_S1024x50x64x1_0_1_2_3 : S1x1x64x1.BroadcastsInDim S1024x50x64x1 (![0, 1, 2, 3] : Fin 4 → Fin S1024x50x64x1.rank)
  reducesTo_S1024x50x64x1_S1024x64x1_d1 : S1024x50x64x1.ReducesTo [1] S1024x64x1
  bcast_S_S1024x64x1 : S_.BroadcastsInDim S1024x64x1 (![] : Fin 0 → Fin S1024x64x1.rank)
  gather_S1024x50x1024x1_S64x1_S1024x50x64x1_013_2_n_n_2_1_10245011_wf : GatherDims.WF S1024x50x1024x1 S64x1 S1024x50x64x1 [0, 1, 3] [2] [] [2] [] 1 ![1024, 50, 1, 1]

variable [Facts₀]

def gather_S1024x50x1024x1_S64x1_S1024x50x64x1_013_2_n_n_2_1_10245011 : GatherDims S1024x50x1024x1 S64x1 S1024x50x64x1 where
  offsetDims := [0, 1, 3]
  collapsedSliceDims := [2]
  operandBatchingDims := []
  startIndicesBatchingDims := []
  startIndexMap := [2]
  indexVectorDim := 1
  sliceSizes := ![1024, 50, 1, 1]
  wf := gather_S1024x50x1024x1_S64x1_S1024x50x64x1_013_2_n_n_2_1_10245011_wf

class Facts : Prop extends Facts₀ where

variable [Facts]
-- ==== Proof.Spec.lean ====
/-
  The result both programs compute, as ONE function of the two argument arrays.

  The arguments are `x : [1024, 50, 1024, 1]` (batch b, position l, feature f, a unit axis) and `k : [1, 1, 64, 1]`
  (one weight per actor a). Actor a reads the feature column 16·a. The result at (b, a, 0) is minus the sum over
  the fifty positions l of k[a] · x[b, l, 16·a], kept as the extended-real term
  `(−1) · (0 + Σ_l k[a] · x[b, l, 16·a])`, the two literals as the words `0xBF800000` (−1.0) and `0x00000000` (0.0).
  Where every entry of `x` and `k` is a real number the same entry is `(Σ_l x[b, l, 16·a]) · (−k[a])`: the weight
  leaves the sum (distributivity, which on the extended reals needs the finiteness) and the sign moves onto it.
-/
import Idealize.ShloMosaic.PureOps.Ideal
import Idealize.ShloMosaic.Lib.ValueIdx

noncomputable section

open scoped BigOperators

namespace Cert.ActorSum

open Idealize.ShloMosaic Idealize.ShloMosaic.ValueIdx

/-- The shapes of the two arguments and of the result. -/
abbrev SX : Shape := ⟨4, ![1024, 50, 1024, 1]⟩
abbrev SK : Shape := ⟨4, ![1, 1, 64, 1]⟩
abbrev SO : Shape := ⟨3, ![1024, 64, 1]⟩

/-- Actor `a`'s feature column, `16·a`. -/
def col (a : Fin 64) : Fin 1024 := ⟨16 * a.val, by omega⟩

theorem col_val (a : Fin 64) : (col a).val = 16 * a.val := rfl

/-- The result's entry for batch row `b` and actor `a`. -/
def entry (x : SX.Idx → EReal) (k : SK.Idx → EReal) (b : Fin 1024) (a : Fin 64) : EReal :=
  Ideal.ofBits .f32 0xBF800000#32
    * (Ideal.ofBits .f32 0x00000000#32 + ∑ l : Fin 50, k (ix4 0 0 a 0) * x (ix4 b l (col a) 0))

/-- The result array: entry (b, a) at the index (b, a, 0). -/
def G (x : SX.Idx → EReal) (k : SK.Idx → EReal) : SO.Idx → EReal := fun i => entry x k (i 0) (i 1)

theorem G_ix3 (x : SX.Idx → EReal) (k : SK.Idx → EReal) (b : Fin 1024) (a : Fin 64) (z : Fin 1) :
    G x k (ix3 b a z) = entry x k b a := rfl

end Cert.ActorSum

end
-- ==== Proof.Law.lean ====
/-
  The law that joins the two sides. Where every entry of `x` and `k` is a real number,
  `(Σ_l x[b, l, 16·a]) · (−k[a]) = (−1) · (0 + Σ_l k[a] · x[b, l, 16·a])`:
  in the reals the weight leaves the sum (distributivity) and the sign is the factor −1; the coercion of the reals into the
  extended reals carries sums, products and negation, and the two literal words denote −1 and 0. (On the extended reals
  distributivity fails at the infinities, which is why the entries must be real.)
-/
import proofs.«173281_g10677288698162_week1_w2_857_20_alg».proof.Proof.Spec
import Idealize.ShloMosaic.PureOps.Ideal.Laws

noncomputable section

open scoped BigOperators

namespace Cert.ActorSum

open Idealize.ShloMosaic Idealize.ShloMosaic.ValueIdx

/-- The coercion of the reals into the extended reals carries finite sums. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The word `0xBF800000` denotes −1. -/
theorem ofBits_negOne : Ideal.ofBits .f32 0xBF800000#32 = ((-1 : ℝ) : EReal) := by
  rw [show Ideal.ofBits .f32 0xBF800000#32 = (-1 : EReal) from IdealRules.sign_bit.ideal_negOnePat .f32]
  simp

/-- THE LAW, at real entries. -/
theorem entry_of_real (x : SX.Idx → EReal) (k : SK.Idx → EReal) (hx : ∀ i, ∃ r : ℝ, x i = (r : EReal))
    (hk : ∀ i, ∃ r : ℝ, k i = (r : EReal)) (b : Fin 1024) (a : Fin 64) :
    (∑ l : Fin 50, x (ix4 b l (col a) 0)) * (-(k (ix4 0 0 a 0))) = entry x k b a := by
  choose xr hxr using hx
  choose kr hkr using hk
  unfold entry
  simp only [hxr, hkr]
  rw [ofBits_negOne, Ideal.ofBits_zero_f32, zero_add]
  simp only [← EReal.coe_mul, ← coe_sum, ← EReal.coe_neg]
  congr 1
  rw [Finset.sum_mul, Finset.mul_sum]
  refine Finset.sum_congr rfl fun l _ => ?_
  ring

end Cert.ActorSum

end
-- ==== Proof.Finite.lean ====
/-
  What the precondition says. It is `jnp.all(|x| < +inf) & jnp.all(|k| < +inf)`: printed, each `jnp.all` is an and-reduction of
  the elementwise comparison from the constant 1. If the conjunction is 1, each reduction is 1, so each comparison is 1 at
  every index; and an extended real whose absolute value `max v (−v)` lies strictly below `+inf` is neither infinity: it is a
  real number.
-/
import proofs.«173281_g10677288698162_week1_w2_857_20_alg».proof.Pre_finite_inputs
import proofs.«173281_g10677288698162_week1_w2_857_20_alg».proof.Proof.Gen.Pre_finite_inputs
import proofs.«173281_g10677288698162_week1_w2_857_20_alg».proof.Proof.Spec
import Idealize.ShloMosaic.Lib.ReduceAll
import Idealize.ShloMosaic.Lib.ValueIdx
import Idealize.ShloMosaic.PureOps.Ideal.Laws

noncomputable section

namespace Cert.ActorSum

open Idealize.ShloMosaic Idealize.ShloMosaic.ValueIdx

/-- The scalar shape has one index. -/
instance : Subsingleton Cert.Pre_finite_inputs.S_.Idx := ⟨fun a b => funext fun d => d.elim0⟩

/-- The word `0x7F800000` denotes `+inf`. -/
theorem ofBits_inf : Ideal.ofBits .f32 0x7F800000#32 = (⊤ : EReal) := by simp [Ideal.ofBits, Ideal.ieee]

/-- An extended real whose absolute value lies strictly below `+inf` is a real number. -/
theorem real_of_abs_lt (v : EReal) (h : Ideal.cmp .olt (max v (-v)) (Ideal.ofBits .f32 0x7F800000#32) = 1#1) :
    ∃ r : ℝ, v = (r : EReal) := by
  rw [ofBits_inf] at h
  induction v using EReal.rec with
  | bot => simp [Ideal.cmp] at h
  | top => simp [Ideal.cmp] at h
  | coe r => exact ⟨r, rfl⟩

/-- Under the precondition every entry of both arguments is a real number. -/
theorem finite_of_pre (x : SX.Idx → EReal) (k : SK.Idx → EReal)
    (h : Cert.Pre_finite_inputs.fn (F := Ideal) x k = fun _ => 1#1) :
    (∀ i, ∃ r : ℝ, x i = (r : EReal)) ∧ (∀ i, ∃ r : ℝ, k i = (r : EReal)) := by
  have h0 := congrFun h ix0
  dsimp only [Cert.Pre_finite_inputs.fn] at h0
  obtain ⟨hx, hk⟩ := IntOp.andi_eq_one.mp h0
  refine ⟨fun i => real_of_abs_lt (x i) ?_, fun i => real_of_abs_lt (k i) ?_⟩
  · exact Host.reduce_andi_all _ _ _ _ ix0 hx i
  · exact Host.reduce_andi_all _ _ _ _ ix0 hk i

end Cert.ActorSum

end
-- ==== Proof.RefRun.lean ====
/-
  The reference's @main as the list of its thirty-one host operations, and its run read back.

  The reference takes the sixty-four actor columns out of `x` by `jnp.take` along the feature axis — a table of the
  columns 0, 16, …, 1008; each table entry wrapped if negative; a gather at the wrapped entries; and, where an entry
  were out of the range [0, 1023], a fill value in the gather's place —, multiplies by the weights broadcast over
  batch and position, sums over the positions from 0.0, and multiplies by −1.0. `out` is that composed term of the
  two argument arrays; `run` says every weakly fair execution ends with the result buffer at `out` of the arguments
  as launched, and the arguments unchanged.
-/
import proofs.«173281_g10677288698162_week1_w2_857_20_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The table of actor columns as an array: entry `a` is the word `16·a`. -/
def tbl : IVec S64 32 := fun i => lit0 (S64.rowMajor i)

/-- The table with negative entries wrapped by the axis length 1024, as a column `[64, 1]`: the start indices of the gather. -/
def idx : IVec S64x1 32 :=
  broadcastInDim S64x1 ![0] bcast_S64_S64x1_0
    (select (cmpi .slt tbl (broadcastInDim S64 ![] bcast_S_S64 (constantI S_ 32 0#32)))
      (addi tbl (broadcastInDim S64 ![] bcast_S_S64 (constantI S_ 32 1024#32))) tbl)

/-- Per actor, whether its start index lies in `[0, 1023]`. -/
def inb : IVec S64 1 :=
  Host.reduce IntOp.andi
    (andi (cmpi .sge idx (broadcastInDim S64x1 ![] bcast_S_S64x1 (constantI S_ 32 0#32)))
      (cmpi .sle idx (broadcastInDim S64x1 ![0, 1] bcast_S1x1_S64x1_0_1 (broadcastInDim S1x1 ![1] bcast_S1_S1x1_1 (constantI S1 32 1023#32)))))
    (constantI S_ 1 1#1) reducesTo_S64x1_S64_d1 h_S_

/-- The taken columns `[1024, 50, 64, 1]`: the gather where the start index is in range, the fill value elsewhere. -/
def taken (x : FVec F S1024x50x1024x1 .f32) : FVec F S1024x50x64x1 .f32 :=
  select (broadcastInDim S1024x50x64x1 ![2] bcast_S64_S1024x50x64x1_2 inb)
    (Host.gather gather_S1024x50x1024x1_S64x1_S1024x50x64x1_013_2_n_n_2_1_10245011 x idx)
    (broadcastInDim S1024x50x64x1 ![] bcast_S_S1024x50x64x1 (constant S_ .f32 0x7FC00000#32))

/-- The reference's result as a function of its two arguments. -/
def out (x : FVec F S1024x50x1024x1 .f32) (k : FVec F S1x1x64x1 .f32) : FVec F S1024x64x1 .f32 :=
  mulf (broadcastInDim S1024x64x1 ![] bcast_S_S1024x64x1 (constant S_ .f32 0xBF800000#32))
    (Host.reduceAdd
      (mulf (broadcastInDim S1024x50x64x1 ![0, 1, 2, 3] bcast_S1x1x64x1_S1024x50x64x1_0_1_2_3 k) (taken x))
      (constant S_ .f32 0x00000000#32) reducesTo_S1024x50x64x1_S1024x64x1_d1 h_S_)

/-! ## The operations -/

/-- @main's operations in order, the two calls unfolded: the table; `_take`'s twenty-three (of which `_where`'s select is
    the seventh) into the buffers of the call's record; then @main's own seven. -/
abbrev ops : List (HloOp τ sig (Elt F)) :=
  [ nullary main_c (fun i => lit0 (S64.rowMajor i)),
    TRef.nullary main_call0.c (constantI S_ 32 0#32),
    TRef.unary main_call0.c main_call0.v0 (broadcastInDim S64 ![] bcast_S_S64),
    TRef.binary (.of main_c) main_call0.v0 main_call0.v1 (cmpi .slt),
    TRef.nullary main_call0.c_0 (constantI S_ 32 1024#32),
    TRef.unary main_call0.c_0 main_call0.v2 (broadcastInDim S64 ![] bcast_S_S64),
    TRef.binary (.of main_c) main_call0.v2 main_call0.v3 addi,
    TRef.ternary main_call0.v1 main_call0.v3 (.of main_c) main_call0.call0.v0 select,
    TRef.unary main_call0.call0.v0 main_call0.v5 (broadcastInDim S64x1 ![0] bcast_S64_S64x1_0),
    TRef.nullary main_call0.c_1 (constantI S1 32 1023#32),
    TRef.nullary main_call0.c_2 (constantI S_ 32 0#32),
    TRef.unary main_call0.c_2 main_call0.v6 (broadcastInDim S64x1 ![] bcast_S_S64x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S64x1 ![0, 1] bcast_S1x1_S64x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S64x1_S64_d1 h_S_),
    TRef.binary (.of main_arg0) main_call0.v5 main_call0.v13 (fun x i => Host.gather gather_S1024x50x1024x1_S64x1_S1024x50x64x1_013_2_n_n_2_1_10245011 x i),
    TRef.unary main_call0.v12 main_call0.v14 (broadcastInDim S1024x50x64x1 ![2] bcast_S64_S1024x50x64x1_2),
    TRef.nullary main_call0.cst (constant S_ .f32 0x7FC00000#32),
    TRef.unary main_call0.cst main_call0.v15 (broadcastInDim S1024x50x64x1 ![] bcast_S_S1024x50x64x1),
    TRef.ternary main_call0.v14 main_call0.v13 main_call0.v15 main_call0.v16 select,
    unary main_arg1 main_v1 (broadcastInDim S1024x50x64x1 ![0, 1, 2, 3] bcast_S1x1x64x1_S1024x50x64x1_0_1_2_3 : (⟨S1x1x64x1, .f32⟩ : BufTy).Contents (Elt F) → (⟨S1024x50x64x1, .f32⟩ : BufTy).Contents (Elt F)),
    binary main_v1 main_v0 main_v2 (mulf : (⟨S1024x50x64x1, .f32⟩ : BufTy).Contents (Elt F) → (⟨S1024x50x64x1, .f32⟩ : BufTy).Contents (Elt F) → (⟨S1024x50x64x1, .f32⟩ : BufTy).Contents (Elt F)),
    nullary main_cst (constant S_ .f32 0x00000000#32),
    binary main_v2 main_cst main_v3 ((fun x v => Host.reduceAdd x v reducesTo_S1024x50x64x1_S1024x64x1_d1 h_S_) : (⟨S1024x50x64x1, .f32⟩ : BufTy).Contents (Elt F) → (⟨S_, .f32⟩ : BufTy).Contents (Elt F) → (⟨S1024x64x1, .f32⟩ : BufTy).Contents (Elt F)),
    nullary main_cst_0 (constant S_ .f32 0xBF800000#32),
    unary main_cst_0 main_v4 (broadcastInDim S1024x64x1 ![] bcast_S_S1024x64x1 : (⟨S_, .f32⟩ : BufTy).Contents (Elt F) → (⟨S1024x64x1, .f32⟩ : BufTy).Contents (Elt F)),
    binary main_v4 main_v3 main_v5 (mulf : (⟨S1024x64x1, .f32⟩ : BufTy).Contents (Elt F) → (⟨S1024x64x1, .f32⟩ : BufTy).Contents (Elt F) → (⟨S1024x64x1, .f32⟩ : BufTy).Contents (Elt F)) ]

set_option maxRecDepth 1024 in
/-- @main is that straight line: the two functions' bodies unfolded at their calls and the call's record at its
    fields, both sides are one chain of host steps once sequencing is reassociated. -/
theorem main_eq (c : Dev nD) : main (F := F) c = seq ops := by
  simp only [main, fn_take.body, fn_where.body, seq, bind_assoc, pure_bind]

attribute [local irreducible] Host.reduce Host.gather Host.reduceAdd in
set_option maxRecDepth 8192 in
set_option maxHeartbeats 4000000 in
/-- The fold of the operations, read at the result buffer, is `out` of the two arguments: the fold unrolled, each
    operation's result decides whether the buffer read is the one it writes; the reductions and the gather stay folded. -/
theorem out_eq (V : Valuation τ sig (Elt F)) :
    after ops V (main_v5 : DevRef τ sig) = out (V (main_arg0 : DevRef τ sig)) (V (main_arg1 : DevRef τ sig)) := by
  after_results_simp
  rfl

/-- No operation writes the first argument. -/
theorem arg0_eq (V : Valuation τ sig (Elt F)) :
    after ops V (main_arg0 : DevRef τ sig) = V (main_arg0 : DevRef τ sig) := by
  simp only [after_cons, after_nil]
  rfl

/-- No operation writes the second argument. -/
theorem arg1_eq (V : Valuation τ sig (Elt F)) :
    after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., binary_bufs_sub .., nullary_bufs_sub .., binary_bufs_sub .., nullary_bufs_sub .., unary_bufs_sub ..,
    binary_bufs_sub ..⟩

/-- At the compiled mesh, for any float values, from any memory with zero counters: every weakly fair execution of
    @main terminates with the result buffer at `out` of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v5).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  The reference's composed term is the specification `G`, entry by entry.

  Every table entry `16·a` is non-negative, so the wrap leaves it; it lies in `[0, 1023]`, so the range mask is all ones
  and the fill value is never selected; and the gather's clamp leaves it. So the taken array at (b, l, a, 0) is
  `x[b, l, 16·a, 0]`. The rest is reading the operations at an index: the weights broadcast over batch and position,
  the product, the sum over the positions from 0.0 as the initial value plus the `Fin 50`-indexed sum, the product with −1.0.
-/
import proofs.«173281_g10677288698162_week1_w2_857_20_alg».proof.Proof.RefRun
import proofs.«173281_g10677288698162_week1_w2_857_20_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.RefRun Idealize.ShloMosaic Idealize.ShloMosaic.TcCoe
  Idealize.ShloMosaic.ValueIdx Idealize.SL.Sem Cert.ActorSum

/-! ## The index words -/

/-- The table's entry `a` is the word of `16·a`. -/
theorem lit0_eq : ∀ a : Fin 64, lit0 a = BitVec.ofNat 32 (16 * a.val) := by decide

/-- No entry is negative: the wrap leaves it. -/
theorem wrap_eq : ∀ a : Fin 64,
    Scalar.select (IntOp.cmpi .slt (BitVec.ofNat 32 (16 * a.val)) 0#32) (IntOp.addi (BitVec.ofNat 32 (16 * a.val)) 1024#32)
      (BitVec.ofNat 32 (16 * a.val)) = BitVec.ofNat 32 (16 * a.val) := by decide

/-- Every entry lies in `[0, 1023]`. -/
theorem range_ok : ∀ a : Fin 64,
    IntOp.andi (IntOp.cmpi .sge (BitVec.ofNat 32 (16 * a.val)) 0#32) (IntOp.cmpi .sle (BitVec.ofNat 32 (16 * a.val)) 1023#32) = 1#1 := by
  decide

/-- Read as a signed integer and clamped to the axis, the entry is `16·a`. -/
theorem clamp_eq : ∀ a : Fin 64, min (BitVec.ofNat 32 (16 * a.val)).toInt.toNat (1024 - 1) = 16 * a.val := by decide

theorem tbl_apply (a : Fin 64) : tbl (ix1 a) = BitVec.ofNat 32 (16 * a.val) := by
  unfold tbl
  have h : (S64.rowMajor (ix1 a) : Fin 64) = a := Fin.ext (Shape.rowMajor_val_one (ix1 a))
  show lit0 (S64.rowMajor (ix1 a)) = _
  rw [h]
  exact lit0_eq a

/-- The start index of actor `a`. -/
theorem idx_apply (a : Fin 64) (z : Fin 1) : idx (ix2 a z) = BitVec.ofNat 32 (16 * a.val) := by
  unfold idx
  rw [broadcastInDim_apply _ _ _ (ix2 a z) (ix1 a) (fun ax => by match ax with | ⟨0, _⟩ => rfl)]
  show Scalar.select (IntOp.cmpi .slt (tbl (ix1 a)) 0#32) (IntOp.addi (tbl (ix1 a)) 1024#32) (tbl (ix1 a)) = _
  rw [tbl_apply]
  exact wrap_eq a

/-- The column of range tests reduces along its unit axis; the sum over the positions reduces along the position axis. -/
theorem red64 : S64x1.Reduces [1] S64 := by decide
theorem red50 : S1024x50x64x1.Reduces [1] S1024x64x1 := by decide

/-- A fold over an axis of extent one is the operation applied to the one element and the initial value. -/
theorem fold_unit {n : Nat} (hn : n = 1) (f : BitVec 1 → BitVec 1 → BitVec 1) [Std.Commutative f] [Std.Associative f]
    (b : BitVec 1) (g : Fin n → BitVec 1) :
    (Finset.univ : Finset (Fin n)).fold f b g = f (g ⟨0, by omega⟩) b := by
  subst hn
  rw [Finset.univ_unique, Finset.fold_singleton]
  rfl

/-- The range mask is one at every actor: the and-reduction along the unit axis folds the one test into the initial 1. -/
theorem inb_apply (a : Fin 64) : inb (ix1 a) = 1#1 := by
  unfold inb
  refine (Host.reduce_eq_fold_single IntOp.andi _ _ reducesTo_S64x1_S64_d1 red64 h_S_ (ix1 a)).trans ?_
  refine (fold_unit (n := S64x1.size 1) rfl IntOp.andi _ _).trans ?_
  have hl : red64.lift (ix1 a) (⟨0, by decide⟩ : Fin (S64x1.size 1)) = ix2 a (0 : Fin 1) :=
    funext fun e => Fin.ext (by match e with | ⟨0, _⟩ => rfl | ⟨1, _⟩ => rfl)
  show IntOp.andi (IntOp.andi (IntOp.cmpi .sge (idx (red64.lift (ix1 a) ⟨0, by decide⟩)) 0#32)
      (IntOp.cmpi .sle (idx (red64.lift (ix1 a) ⟨0, by decide⟩)) 1023#32)) 1#1 = 1#1
  rw [hl, idx_apply, range_ok]
  rfl

/-! ## The taken columns -/

/-- The gather's dimension numbers: the start index names the feature axis, which is collapsed; the other three axes are
    offsets. -/
abbrev GD := gather_S1024x50x1024x1_S64x1_S1024x50x64x1_013_2_n_n_2_1_10245011

/-- Off the feature axis the gather has no start index … -/
theorem start_zero (j : S1024x50x64x1.Idx) (e : Fin 4) (he : e ∉ GD.startIndexMap) : GD.start j idx e = 0 := by
  unfold GatherDims.start
  rw [dif_neg he]

/-- … and reads the result's own coordinate: the operand's axes 0, 1 and 3 are the result's offset axes 0, 1 and 3. -/
theorem off_kept (j : S1024x50x64x1.Idx) (e : Fin 4) (o : Fin 4) (he : e ∈ GD.sKept)
    (ho : ∀ (n : Nat) (hn : n < GD.offsetDims.length), n = List.idxOf e GD.sKept → GD.offsetDims[n]'hn = o) :
    GD.offCoord j e = (j o).val := by
  unfold GatherDims.offCoord
  rw [dif_pos he]
  exact congrArg (fun q => (j q).val) (ho _ _ rfl)

/-- The taken array at (b, l, a, z) is `x` at (b, l, 16·a, z). -/
theorem taken_apply (x : FVec Ideal S1024x50x1024x1 .f32) (b : Fin 1024) (l : Fin 50) (a : Fin 64) (z : Fin 1) :
    taken (F := Ideal) x (ix4 b l a z) = x (ix4 b l (col a) z) := by
  unfold taken
  rw [select_apply]
  have hm : broadcastInDim S1024x50x64x1 ![2] bcast_S64_S1024x50x64x1_2 inb (ix4 b l a z) = 1#1 := by
    rw [broadcastInDim_apply _ _ _ (ix4 b l a z) (ix1 a) (fun ax => by match ax with | ⟨0, _⟩ => rfl)]
    exact inb_apply a
  rw [hm, select_one]
  unfold Host.gather
  refine congrArg x (funext fun e => Fin.ext ?_)
  match e with
  | ⟨0, _⟩ =>
    show GD.start (ix4 b l a z) idx 0 + GD.batchCoord (ix4 b l a z) 0 + GD.offCoord (ix4 b l a z) 0 = b.val
    rw [start_zero _ 0 (by decide), GatherDims.batchCoord_eq_zero _ _ _ List.not_mem_nil,
      off_kept _ 0 0 (by decide) (fun n hn e => by
        have h0 : n = 0 := e.trans (by decide)
        subst h0; rfl)]
    simp
  | ⟨1, _⟩ =>
    show GD.start (ix4 b l a z) idx 1 + GD.batchCoord (ix4 b l a z) 1 + GD.offCoord (ix4 b l a z) 1 = l.val
    rw [start_zero _ 1 (by decide), GatherDims.batchCoord_eq_zero _ _ _ List.not_mem_nil,
      off_kept _ 1 1 (by decide) (fun n hn e => by
        have h0 : n = 1 := e.trans (by decide)
        subst h0; rfl)]
    simp
  | ⟨3, _⟩ =>
    show GD.start (ix4 b l a z) idx 3 + GD.batchCoord (ix4 b l a z) 3 + GD.offCoord (ix4 b l a z) 3 = z.val
    rw [start_zero _ 3 (by decide), GatherDims.batchCoord_eq_zero _ _ _ List.not_mem_nil,
      off_kept _ 3 3 (by decide) (fun n hn e => by
        have h0 : n = 2 := e.trans (by decide)
        subst h0; rfl)]
    simp
  | ⟨2, _⟩ =>
    show GD.start (ix4 b l a z) idx 2 + GD.batchCoord (ix4 b l a z) 2 + GD.offCoord (ix4 b l a z) 2 = 16 * a.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 4) ∈ GD.startIndexMap from List.mem_singleton.mpr rfl)]
    have hsi : GD.siIdx (ix4 b l a z) ⟨List.idxOf (2 : Fin 4) GD.startIndexMap,
        List.idxOf_lt_length_iff.2 (List.mem_singleton.mpr rfl)⟩ = ix2 a (0 : Fin 1) :=
      funext fun e => Fin.ext (by match e with | ⟨0, _⟩ => rfl | ⟨1, _⟩ => rfl)
    rw [hsi, idx_apply]
    exact clamp_eq a

/-! ## The result -/

/-- THE REFERENCE IS `G`: at (b, a, z) the product with −1.0 of the sum, from 0.0, over the positions of the weight times the
    taken entry. -/
theorem out_eq_G (x : FVec Ideal S1024x50x1024x1 .f32) (k : FVec Ideal S1x1x64x1 .f32) : out (F := Ideal) x k = G x k := by
  funext i
  obtain ⟨b, a, z, rfl⟩ : ∃ (b : Fin 1024) (a : Fin 64) (z : Fin 1), i = ix3 b a z := ⟨i 0, i 1, i 2, eq_ix3 i⟩
  rw [G_ix3]
  unfold out entry
  show Ideal.ofBits .f32 0xBF800000#32
      * Ideal.hostReduceAdd reducesTo_S1024x50x64x1_S1024x64x1_d1
          (mulf (broadcastInDim S1024x50x64x1 ![0, 1, 2, 3] bcast_S1x1x64x1_S1024x50x64x1_0_1_2_3 k) (taken (F := Ideal) x))
          (Ideal.ofBits .f32 0x00000000#32) (ix3 b a z) = _
  rw [Ideal.hostReduceAdd_single reducesTo_S1024x50x64x1_S1024x64x1_d1 red50]
  show Ideal.ofBits .f32 0xBF800000#32 * (Ideal.ofBits .f32 0x00000000#32
      + ∑ l : Fin 50, mulf (broadcastInDim S1024x50x64x1 ![0, 1, 2, 3] bcast_S1x1x64x1_S1024x50x64x1_0_1_2_3 k)
          (taken (F := Ideal) x) (red50.lift (ix3 b a z) l)) = _
  refine congrArg (fun s => Ideal.ofBits .f32 0xBF800000#32 * (Ideal.ofBits .f32 0x00000000#32 + s))
    (Finset.sum_congr rfl fun l _ => ?_)
  have hl : red50.lift (ix3 b a z) l = ix4 b l a z :=
    funext fun e => Fin.ext (by match e with | ⟨0, _⟩ => rfl | ⟨1, _⟩ => rfl | ⟨2, _⟩ => rfl | ⟨3, _⟩ => rfl)
  rw [hl]
  show broadcastInDim S1024x50x64x1 ![0, 1, 2, 3] bcast_S1x1x64x1_S1024x50x64x1_0_1_2_3 k (ix4 b l a z) * taken (F := Ideal) x (ix4 b l a z) = _
  rw [taken_apply,
    broadcastInDim_apply _ _ k (ix4 b l a z) (ix4 (0 : Fin 1) (0 : Fin 1) a (0 : Fin 1)) (fun ax => by
      match ax with
      | ⟨0, _⟩ => rfl
      | ⟨1, _⟩ => rfl
      | ⟨2, _⟩ => rfl
      | ⟨3, _⟩ => rfl)]
  have hz : z = 0 := Subsingleton.elim _ _
  rw [hz]

/-- The reference's run, with its result at `G` of the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5)
          = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out_eq_G _ _), (h c).2⟩) (RefRun.run (F := Ideal) m ρ)

end Cert.ReferenceIdeal.RefValue

end
-- ==== Proof.KPayload.lean ====
/-
  The body's one store, read at an entry.

  At a grid point the body loads a block `x0 : [32, 50, 8, 128]` of `x` (32 batch rows; the 1024 features split as 8
  groups of 128 lanes) and the row `x1 : [1, 64]` of negated weights, and stores `S · M`, where `S : [32, 1024]` holds,
  for each batch row and feature, the sum of the block over the fifty positions, and `M : [1024, 64]` has `x1[0, a]` at
  row `16·a` of column `a` and `0.0` elsewhere. So entry (p, a) of the store is `Σ_f S[p, f] · M[f, a]`: every term but
  `f = 16·a` is a product with zero, which on the extended reals is zero whatever the other factor, and the term left
  is `(Σ_l x0[p, l, 16·a / 128, 16·a % 128]) · x1[0, a]`.
-/
import proofs.«173281_g10677288698162_week1_w2_857_20_alg».proof.Proof.Gen.KernelIdeal.Skeleton
import proofs.«173281_g10677288698162_week1_w2_857_20_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.ActorSum

variable {F : FTy → Type} [FloatOps F]

/-- Feature `f` of a merged row lies in group `f / 128` at lane `f % 128`. -/
def grp (f : Fin 1024) : Fin 8 := ⟨f.val / 128, by omega⟩
def lane (f : Fin 1024) : Fin 128 := ⟨f.val % 128, by omega⟩

/-- `S`: the block summed over the positions, its groups and lanes merged into one feature axis. -/
def rowSums (x0 : Vec F S32x50x8x128 .f32) : FVec F S32x1024 .f32 :=
  shapeCast S32x1024
    (multiReduction .add [1] S32x8x128 (shapeCast S32x50x8x128 x0 shapeCasts_S32x50x8x128_S32x50x8x128) 0x00000000#32
      reduces_S32x50x8x128_S32x8x128 (.inl rfl) rfl)
    shapeCasts_S32x8x128_S32x1024

/-- `M`: the weights' row placed at row `16·a` of column `a`, zero elsewhere. -/
def selMat (x1 : Vec F S1x64 .f32) : FVec F S1024x64 .f32 :=
  select
    (cmpi .eq (iota .tc S1024x64 32 [0] iota_S1024x64_d0_w32)
      (muli (iota .tc S1024x64 32 [1] iota_S1024x64_d1_w32) (broadcast S1024x64 16#32)))
    (broadcastTo S1024x64 (shapeCast S1x64 (shapeCast S1x64 x1 shapeCasts_S1x64_S1x64) shapeCasts_S1x64_S1x64)
      broadcasts_S1x64_S1024x64)
    (broadcast S1024x64 (Scalar.ofBits .f32 0x00000000#32))

/-- The stored value is the product `S · M` into a zero accumulator. -/
theorem pay_eq (x0 : Vec F S32x50x8x128 .f32) (x1 : Vec F S1x64 .f32) :
    k0_pay1 x0 x1
      = matmul dot_S32x1024_S1024x64_S32x64_1_0_0_1_n_n none (rowSums x0) (selMat x1) (constant S32x64 .f32 0x00000000#32) := rfl

/-- `S` at (p, f): the sum over the positions of the block at (p, l, f / 128, f % 128). -/
theorem rowSums_apply (x0 : FVec Ideal S32x50x8x128 .f32) (p : Fin 32) (f : Fin 1024) :
    rowSums (F := Ideal) x0 (ix2 p f) = ∑ l : Fin 50, x0 (ix4 p l (grp f) (lane f)) := by
  unfold rowSums
  rw [shapeCast_apply _ _ (ix2 p f) (ix3 p (grp f) (lane f)) (by
    rw [Shape.rowMajor_val_three, Shape.rowMajor_val_two]
    show (p.val * 8 + f.val / 128) * 128 + f.val % 128 = p.val * 1024 + f.val
    omega)]
  refine (Ideal.multiReduction_add_single (φ := .f32) (s := S32x50x8x128) (t := S32x8x128) (a := (1 : Fin 4))
    (shapeCast S32x50x8x128 x0 shapeCasts_S32x50x8x128_S32x50x8x128 : FVec Ideal S32x50x8x128 .f32) 0x00000000#32
    reduces_S32x50x8x128_S32x8x128 (.inl rfl) rfl (ix3 p (grp f) (lane f))).trans ?_
  refine Finset.sum_congr rfl fun l _ => ?_
  rw [shapeCast_self]
  refine congrArg x0 (funext fun e => Fin.ext ?_)
  match e with
  | ⟨0, _⟩ => rfl
  | ⟨1, _⟩ => rfl
  | ⟨2, _⟩ => rfl
  | ⟨3, _⟩ => rfl

/-- The word test of `M`: the word of `f` equals sixteen times the word of `a` exactly when `f = 16·a` (both are far
    below 2³², so nothing wraps). -/
theorem word_eq_iff (f : Fin 1024) (a : Fin 64) :
    IntOp.cmpi .eq (BitVec.ofNat 32 f.val) (IntOp.muli (BitVec.ofNat 32 a.val) 16#32) = 1#1 ↔ f = col a := by
  have hf := f.isLt
  have ha := a.isLt
  have hw : (BitVec.ofNat 32 f.val = BitVec.ofNat 32 a.val * 16#32) ↔ f.val = 16 * a.val := by
    simp only [BitVec.toNat_eq, BitVec.toNat_mul, BitVec.toNat_ofNat, Nat.reducePow]
    omega
  show BitVec.ofBool (BitVec.ofNat 32 f.val == BitVec.ofNat 32 a.val * 16#32) = 1#1 ↔ f = col a
  rw [Fin.ext_iff, col_val, ← hw]
  by_cases h : BitVec.ofNat 32 f.val = BitVec.ofNat 32 a.val * 16#32
  · rw [beq_iff_eq.mpr h]
    exact ⟨fun _ => h, fun _ => rfl⟩
  · rw [beq_eq_false_iff_ne.mpr h]
    exact ⟨fun e => absurd e (by decide), fun e => absurd e h⟩

/-- `M` at (f, a): the weight `x1[0, a]` on the row `f = 16·a`, zero on every other row. -/
theorem selMat_apply (x1 : FVec Ideal S1x64 .f32) (f : Fin 1024) (a : Fin 64) :
    selMat (F := Ideal) x1 (ix2 f a) = if f = col a then x1 (ix2 0 a) else 0 := by
  unfold selMat
  rw [select_apply]
  have hc : (cmpi .eq (iota .tc S1024x64 32 [0] iota_S1024x64_d0_w32)
        (muli (iota .tc S1024x64 32 [1] iota_S1024x64_d1_w32) (broadcast S1024x64 16#32))) (ix2 f a)
      = IntOp.cmpi .eq (BitVec.ofNat 32 f.val) (IntOp.muli (BitVec.ofNat 32 a.val) 16#32) := by
    show IntOp.cmpi .eq (iota .tc S1024x64 32 [0] iota_S1024x64_d0_w32 (ix2 f a))
        (IntOp.muli (iota .tc S1024x64 32 [1] iota_S1024x64_d1_w32 (ix2 f a)) 16#32) = _
    rw [iota_single_apply, iota_single_apply]
  rw [hc]
  by_cases h : f = col a
  · rw [if_pos h, (word_eq_iff f a).mpr h, select_one, broadcastTo_1b_ab_apply, shapeCast_self, shapeCast_self]
  · rw [if_neg h, eq_zero_of_ne_one (mt (word_eq_iff f a).mp h), select_zero]
    exact Ideal.ofBits_zero_f32

/-- The contraction of the product: over the features. -/
abbrev D := dot_S32x1024_S1024x64_S32x64_1_0_0_1_n_n

theorem lhs_0 (j : S32x64.Idx) (k : D.contr.Idx) : (D.lhsIdx j k 0).val = (j 0).val := rfl
theorem lhs_1 (j : S32x64.Idx) (k : D.contr.Idx) : (D.lhsIdx j k 1).val = (k ⟨0, by decide⟩).val :=
  DotDims.lhsIdx_val_of_single (d := D) (cl := (1 : Fin 2)) rfl j k
theorem rhs_0 (j : S32x64.Idx) (k : D.contr.Idx) : (D.rhsIdx j k 0).val = (k ⟨0, by decide⟩).val :=
  DotDims.rhsIdx_val_of_single (d := D) (cr := (0 : Fin 2)) rfl j k
theorem rhs_1 (j : S32x64.Idx) (k : D.contr.Idx) : (D.rhsIdx j k 1).val = (j 1).val := rfl

/-- THE STORE AT (p, a): of the 1024 terms of the product only the feature `16·a` has a nonzero factor from `M`; what is
    left is the block summed over the positions at that feature, times the weight. -/
theorem pay_apply (x0 : FVec Ideal S32x50x8x128 .f32) (x1 : FVec Ideal S1x64 .f32) (p : Fin 32) (a : Fin 64) :
    k0_pay1 (F := Ideal) x0 x1 (ix2 p a)
      = (∑ l : Fin 50, x0 (ix4 p l (grp (col a)) (lane (col a)))) * x1 (ix2 0 a) := by
  rw [pay_eq]
  refine (Ideal.matmul_constant_zero_apply D none (rowSums (F := Ideal) x0) (selMat (F := Ideal) x1) (ix2 p a)).trans ?_
  rw [← Equiv.sum_comp (contrEquiv1 D 1024 rfl rfl).symm]
  have hl : ∀ f : Fin 1024, D.lhsIdx (ix2 p a) ((contrEquiv1 D 1024 rfl rfl).symm f) = ix2 p f := fun f =>
    Shape.idx_ext₂ (lhs_0 _ _) ((lhs_1 _ _).trans (contrEquiv1_symm_val D 1024 rfl rfl f))
  have hr : ∀ f : Fin 1024, D.rhsIdx (ix2 p a) ((contrEquiv1 D 1024 rfl rfl).symm f) = ix2 f a := fun f =>
    Shape.idx_ext₂ ((rhs_0 _ _).trans (contrEquiv1_symm_val D 1024 rfl rfl f)) (rhs_1 _ _)
  simp only [hl, hr]
  rw [Finset.sum_eq_single (col a)]
  · rw [rowSums_apply, selMat_apply, if_pos rfl]
  · intro f _ hf
    rw [selMat_apply, if_neg hf, mul_zero]
  · intro h
    exact absurd (Finset.mem_univ _) h

end Cert.KernelIdeal.Payload

end
-- ==== Proof.KValue.lean ====
/-
  The kernel's result array, read off its frame run.

  Before the region the host reshapes `x` to `[1024, 50, 8, 128]` (feature f at group f / 128, lane f % 128) and
  negates the weights reshaped to a row `[1, 64]`. Grid point t stages batch rows 32·t … 32·t + 31 of the first and the whole
  row of the second, and writes back rows 32·t … 32·t + 31 of a `[1024, 64]` array: by the body's store read at an entry,
  row b, column a of that array ends at `(Σ_l x[b, l, 16·a]) · (−k[a])`. The thirty-two blocks tile the array. After the
  region the host reshapes it to `[1024, 64, 1]`. Where every entry of `x` and `k` is real, that entry is the specification's.
-/
import proofs.«173281_g10677288698162_week1_w2_857_20_alg».proof.Proof.Gen.KernelIdeal.Frame
import proofs.«173281_g10677288698162_week1_w2_857_20_alg».proof.Proof.KPayload
import proofs.«173281_g10677288698162_week1_w2_857_20_alg».proof.Proof.Law
import Idealize.ShloMosaic.Lib.Pipeline.Value
import Idealize.ShloMosaic.Lib.StableHlo.Run

set_option maxRecDepth 16384

noncomputable section

open scoped BigOperators

namespace Cert.KernelIdeal.ActorValue

open Cert.KernelIdeal Cert.KernelIdeal.Gen Cert.KernelIdeal.Payload Idealize.ShloMosaic Idealize.ShloMosaic.TcCoe
  Idealize.ShloMosaic.ValueIdx Idealize.SL.Sem Cert.ActorSum
open Idealize.ShloMosaic.Pipeline (Dat Cfg Window)

variable (m : (ℓ : Loc nD τ sig) → Buf (Elt Ideal) ℓ) (ρ : Dev nD → PrngReg)

/-! ## The two arrays the region finds -/

/-- The two arguments as launched, and the two arrays the region stages, each at its literal type. -/
abbrev xarr (c : Dev nD) : SX.Idx → EReal := m ((c : Thread nD τ).loc main_arg0)
abbrev karr (c : Dev nD) : SK.Idx → EReal := m ((c : Thread nD τ).loc main_arg1)
abbrev v0arr (c : Dev nD) : S1024x50x8x128.Idx → EReal := V m c main_v0
abbrev v2arr (c : Dev nD) : S1x64.Idx → EReal := V m c main_v2

/-- The first staged array is `x` reshaped. -/
theorem V_v0 (c : Dev nD) :
    v0arr m c = shapeCast S1024x50x8x128 (xarr m c) shapeCasts_S1024x50x1024x1_S1024x50x8x128 := by
  show StableHlo.after hostOps0 (fun b => m (c, b)) (Proc.devRef .tc main_v0) = _
  after_results
  try rfl

/-- The second is the weights reshaped to a row and negated. -/
theorem V_v2 (c : Dev nD) :
    v2arr m c = Host.negf (F := Ideal) (φ := .f32) (shapeCast S1x64 (karr m c) shapeCasts_S1x1x64x1_S1x64) := by
  show StableHlo.after hostOps0 (fun b => m (c, b)) (Proc.devRef .tc main_v2) = _
  after_results
  try rfl

/-- Feature `f` of `x` sits at group `f / 128`, lane `f % 128` of the reshaped array. -/
theorem v0_apply (c : Dev nD) (b : Fin 1024) (l : Fin 50) (f : Fin 1024) :
    v0arr m c (ix4 b l (grp f) (lane f)) = xarr m c (ix4 b l f (0 : Fin 1)) := by
  refine (congrFun (V_v0 m c) _).trans ?_
  exact shapeCast_apply _ _ _ (ix4 b l f (0 : Fin 1)) (by
    rw [Shape.rowMajor_val_four, Shape.rowMajor_val_four]
    show ((b.val * 50 + l.val) * 1024 + f.val) * 1 + 0 = ((b.val * 50 + l.val) * 8 + f.val / 128) * 128 + f.val % 128
    omega)

/-- The row's entry `a` is minus the weight of actor `a`. -/
theorem v2_apply (c : Dev nD) (a : Fin 64) :
    v2arr m c (ix2 (0 : Fin 1) a) = -(karr m c (ix4 (0 : Fin 1) (0 : Fin 1) a (0 : Fin 1))) := by
  refine (congrFun (V_v2 m c) _).trans ?_
  show -(shapeCast S1x64 (karr m c) shapeCasts_S1x1x64x1_S1x64 (ix2 (0 : Fin 1) a)) = _
  rw [shapeCast_apply _ _ (ix2 (0 : Fin 1) a) (ix4 (0 : Fin 1) (0 : Fin 1) a (0 : Fin 1)) (by
    rw [Shape.rowMajor_val_four, Shape.rowMajor_val_two]
    show ((0 * 1 + 0) * 64 + a.val) * 1 + 0 = 0 * 64 + a.val
    omega)]

/-! ## What a point writes back -/

theorem hz4 : (![0, 0, 0, 0] : Fin 4 → Nat) = fun _ => 0 := funext fun a => by fin_cases a <;> rfl
theorem hz2 : (![0, 0] : Fin 2 → Nat) = fun _ => 0 := funext fun a => by fin_cases a <;> rfl

/-- Row `b`, column `a` of the region's output array, from the two staged arrays. -/
def arrEntry (v0 : S1024x50x8x128.Idx → EReal) (v2 : S1x64.Idx → EReal) (b : Fin 1024) (a : Fin 64) : EReal :=
  (∑ l : Fin 50, v0 (ix4 b l (grp (col a)) (lane (col a)))) * v2 (ix2 (0 : Fin 1) a)

/-- The output array as one function. -/
def arrFn (v0 : S1024x50x8x128.Idx → EReal) (v2 : S1x64.Idx → EReal) : S1024x64.Idx → EReal :=
  fun i => arrEntry v0 v2 (i 0) (i 1)

/-- The printed index maps over the grid: the first window and the output move together along the batch axis, block
    `t` at point `t`; every other block index is zero. -/
theorem idx_facts : ∀ t : Fin cfg0.N,
    win0_0.index t (0 : Fin 4) = win0_2.index t (0 : Fin 2) ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `arrFn` of the staged arrays. -/
theorem flushed_eq (c : Dev nD) (t : Fin cfg0.N) :
    (dats (F := Ideal) m 0 c).flushed 2 t
      = ((cfg0.win 2).blk t).view.read (Elt Ideal) (arrFn (v0arr m c) (v2arr m c)) := by
  show (cfg0.win 2).cut (grid0.coords t) ((dats m 0 c).after 2 t) = _
  rw [after0_2]
  unfold out0_2
  rw [View.canon_unit_zero hz2]
  simp only [View.ld_unit_zero (S := S32x50x8x128) hz4, View.ld_unit_zero (S := S1x64) hz2]
  obtain ⟨e0, e1, e2, e3, e4, e5, e6, e7⟩ := idx_facts t
  funext j
  obtain ⟨p, a, rfl⟩ : ∃ (p : Fin 32) (a : Fin 64), j = ix2 p a := ⟨j 0, j 1, eq_ix2 j⟩
  refine (pay_apply (iblk m c 0 t) (iblk m c 1 t) p a).trans ?_
  show (∑ l : Fin 50, v0arr m c (((cfg0.win 0).blk t).view.emb (ix4 p l (grp (col a)) (lane (col a)))))
        * v2arr m c (((cfg0.win 1).blk t).view.emb (ix2 (0 : Fin 1) a))
      = arrEntry (v0arr m c) (v2arr m c) (((cfg0.win 2).blk t).view.emb (ix2 p a) 0)
          (((cfg0.win 2).blk t).view.emb (ix2 p a) 1)
  have h1 : (((cfg0.win 2).blk t).view.emb (ix2 p a) 1 : Fin 64) = a := Fin.ext (by
    show win0_2.index t (1 : Fin 2) * 64 + 1 * a.val = a.val
    omega)
  have h0 : ∀ l : Fin 50, ((cfg0.win 0).blk t).view.emb (ix4 p l (grp (col a)) (lane (col a)))
      = ix4 (((cfg0.win 2).blk t).view.emb (ix2 p a) 0 : Fin 1024) l (grp (col a)) (lane (col a)) := fun l =>
    funext fun e => Fin.ext (by
      match e with
      | ⟨0, _⟩ => show win0_0.index t (0 : Fin 4) * 32 + 1 * p.val = win0_2.index t (0 : Fin 2) * 32 + 1 * p.val; omega
      | ⟨1, _⟩ => show win0_0.index t (1 : Fin 4) * 50 + 1 * l.val = l.val; omega
      | ⟨2, _⟩ => show win0_0.index t (2 : Fin 4) * 8 + 1 * (grp (col a)).val = (grp (col a)).val; omega
      | ⟨3, _⟩ => show win0_0.index t (3 : Fin 4) * 128 + 1 * (lane (col a)).val = (lane (col a)).val; omega)
  have h2 : ((cfg0.win 1).blk t).view.emb (ix2 (0 : Fin 1) a) = ix2 (0 : Fin 1) a := funext fun e => Fin.ext (by
    match e with
    | ⟨0, _⟩ => show win0_1.index t (0 : Fin 2) * 1 + 1 * 0 = 0; omega
    | ⟨1, _⟩ => show win0_1.index t (1 : Fin 2) * 64 + 1 * a.val = a.val; omega)
  unfold arrEntry
  rw [h1, h2]
  simp only [h0]
  rfl

/-! ## The blocks tile the array -/

/-- An index is in point `t`'s block iff each coordinate is in the block's range on its axis. -/
theorem mem_blk (t : Fin cfg0.N) (i : S1024x64.Idx) :
    i ∈ ((cfg0.win 2).blk t).view.set ↔ ∀ a : Fin 2, win0_2.index t a * S32x64.size a ≤ (i a).val
      ∧ (i a).val < win0_2.index t a * S32x64.size a + S32x64.size a := by
  show i ∈ ((View.whole main_v3).slice (win0_2.rect t)).set ↔ _
  rw [View.set_slice_whole, Rect.mem_set_unit]
  exact Iff.rfl

/-- Every row block is some point's. -/
theorem idx_onto : ∀ q : Fin 32, ∃ t : Fin cfg0.N, win0_2.index t = ![q.val, 0] :=
  (by decide +kernel : ∀ q : Fin 32, ∃ t : Fin grid0.N, win0_2.index t = ![q.val, 0])

/-- Row `b` lies in the block of point `b / 32`. -/
theorem cover (i : S1024x64.Idx) :
    ∃ t : Fin cfg0.N, (cfg0.win 2).flush t = true ∧ i ∈ ((cfg0.win 2).blk t).view.set := by
  have hi0 : (i 0).val < 1024 := (i 0).isLt
  have hi1 : (i 1).val < 64 := (i 1).isLt
  obtain ⟨t, ht⟩ := idx_onto ⟨(i 0).val / 32, by omega⟩
  have q0 : win0_2.index t (0 : Fin 2) = (i 0).val / 32 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 32 ≤ (i 0).val ∧ (i 0).val < win0_2.index t (0 : Fin 2) * 32 + 32
    omega
  | ⟨1, _⟩ =>
    show win0_2.index t (1 : Fin 2) * 64 ≤ (i 1).val ∧ (i 1).val < win0_2.index t (1 : Fin 2) * 64 + 64
    omega

/-- THE ARRAY after the run. -/
theorem final (c : Dev nD) :
    (dats (F := Ideal) m 0 c).arrAt 2 cfg0.N = arrFn (v0arr m c) (v2arr m c) :=
  (dats m 0 c).arrAt_eq_of_cover 2 (arrFn (v0arr m c) (v2arr m c)) (fun t _ => flushed_eq m c t) cover

/-! ## The host tail -/

/-- The result buffer: the region's array reshaped. -/
theorem tail_eq (c : Dev nD) :
    (Pipeline.afterTail₀ cfgs (dats (F := Ideal) m) 0 (V0 m) [hostOps1] c main_v4 : S1024x64x1.Idx → EReal)
      = shapeCast S1024x64x1 (arrFn (v0arr m c) (v2arr m c)) shapeCasts_S1024x64_S1024x64x1 := by
  unfold Pipeline.afterTail₀
  show StableHlo.after hostOps1 _ (Proc.devRef .tc main_v4) = _
  after_results
  funext i
  exact congrFun (congrArg (fun A : S1024x64.Idx → EReal => shapeCast S1024x64x1 A shapeCasts_S1024x64_S1024x64x1)
    ((Pipeline.withArrays_arr spec0 launch0.win.arr_inj c _ _ 2).trans (final m c))) i

/-! ## The result -/

/-- Row `b`, column `a` of the region's array in terms of the arguments. -/
theorem arrEntry_args (c : Dev nD) (b : Fin 1024) (a : Fin 64) :
    arrEntry (v0arr m c) (v2arr m c) b a
      = (∑ l : Fin 50, xarr m c (ix4 b l (col a) (0 : Fin 1))) * (-(karr m c (ix4 (0 : Fin 1) (0 : Fin 1) a (0 : Fin 1)))) := by
  unfold arrEntry
  rw [v2_apply]
  exact congrArg (fun s => s * (-(karr m c (ix4 (0 : Fin 1) (0 : Fin 1) a (0 : Fin 1)))))
    (Finset.sum_congr rfl fun l _ => v0_apply m c b l (col a))

/-- THE RESULT BUFFER is the specification's `G` of the arguments, where every entry of both is real. -/
theorem result_eq (c : Dev nD) (hx : ∀ i, ∃ r : ℝ, xarr m c i = (r : EReal)) (hk : ∀ i, ∃ r : ℝ, karr m c i = (r : EReal)) :
    (Pipeline.afterTail₀ cfgs (dats (F := Ideal) m) 0 (V0 m) [hostOps1] c main_v4 : S1024x64x1.Idx → EReal)
      = G (xarr m c) (karr m c) := by
  rw [tail_eq]
  funext i
  obtain ⟨b, a, z, rfl⟩ : ∃ (b : Fin 1024) (a : Fin 64) (z : Fin 1), i = ix3 b a z := ⟨i 0, i 1, i 2, eq_ix3 i⟩
  rw [G_ix3, shapeCast_apply _ _ (ix3 b a z) (ix2 b a) (by
    rw [Shape.rowMajor_val_two, Shape.rowMajor_val_three]
    have hz : z.val = 0 := by have := z.isLt; omega
    show b.val * 64 + a.val = (b.val * 64 + a.val) * 1 + z.val
    omega)]
  show arrEntry (v0arr m c) (v2arr m c) b a = _
  rw [arrEntry_args]
  exact entry_of_real (xarr m c) (karr m c) hx hk b a

/-- THE RUN, re-posted: where the arguments' entries are real, every weakly fair execution ends with the result buffer at
    `G` of the arguments as launched, and the arguments unchanged. -/
theorem run (hx : ∀ c i, ∃ r : ℝ, xarr m c i = (r : EReal)) (hk : ∀ c i, ∃ r : ℝ, karr m c i = (r : EReal)) :
    θ_run (defs (F := Ideal)) (onTc (τ := τ) (main (F := Ideal))) ⟨m, fun _ => 0, ρ⟩ fun r => ∀ c : Dev nD,
      r.2.mem ((c.tc : Thread nD τ).loc main_v4) = G (xarr m c) (karr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (result_eq m c (hx c) (hk c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.ActorValue

end
-- ==== Proof.lean ====
/-
  Kernel and reference compute one function: for `x : [1024, 50, 1024, 1]` (batch b, position l, feature f) and weights
  `k : [1, 1, 64, 1]` (one per actor a, which reads the feature column 16·a), the result at (b, a, 0) is
  `−Σ_l k[a] · x[b, l, 16·a]`.

  The reference takes the sixty-four columns with a gather (a table of the columns, a range mask that is all ones on it,
  so its fill value is never read), multiplies by the weights, sums over the positions and multiplies by −1.0: that
  is the specification `G` as it stands (Proof/RefRun.lean: its thirty-one host operations and their run;
  Proof/RefValue.lean: the composed term read entry by entry).

  The kernel, per block of 32 batch rows, sums the block over the positions and multiplies the `[32, 1024]` matrix of
  sums by a `[1024, 64]` matrix holding `−k[a]` at row 16·a of column a and zero elsewhere. Entry (b, a) of the product is
  a sum of 1024 terms of which all but one are products with zero — zero on the extended reals whatever the other
  factor — and the one left is `(Σ_l x[b, l, 16·a]) · (−k[a])` (Proof/KPayload.lean). The 32 blocks tile the `[1024, 64]`
  output, which the host reshapes to `[1024, 64, 1]` (Proof/KValue.lean, over the generated frame run).

  The two agree where the weight may leave the sum: distributivity, which the extended reals lack at the infinities. The
  precondition — every entry of `x` and `k` of absolute value below `+inf` — makes every entry a real number
  (Proof/Finite.lean), and there the law holds (Proof/Law.lean).

  The three frames: the kernel's two by the generated frame certificates; the reference's by its run, the result dropped.
  The ideal pass rewrote nothing, so `preserves` has no conjunct.
-/
import proofs.«173281_g10677288698162_week1_w2_857_20_alg».proof.Defs
import proofs.«173281_g10677288698162_week1_w2_857_20_alg».proof.Proof.Gen.Kernel
import proofs.«173281_g10677288698162_week1_w2_857_20_alg».proof.Proof.Gen.Kernel.Skeleton
import proofs.«173281_g10677288698162_week1_w2_857_20_alg».proof.Proof.Gen.Kernel.Launch
import proofs.«173281_g10677288698162_week1_w2_857_20_alg».proof.Proof.Gen.Kernel.Points
import proofs.«173281_g10677288698162_week1_w2_857_20_alg».proof.Proof.Gen.Kernel.Frame
import proofs.«173281_g10677288698162_week1_w2_857_20_alg».proof.Proof.Gen.KernelIdeal
import proofs.«173281_g10677288698162_week1_w2_857_20_alg».proof.Proof.Gen.KernelIdeal.Skeleton
import proofs.«173281_g10677288698162_week1_w2_857_20_alg».proof.Proof.Gen.KernelIdeal.Launch
import proofs.«173281_g10677288698162_week1_w2_857_20_alg».proof.Proof.Gen.KernelIdeal.Points
import proofs.«173281_g10677288698162_week1_w2_857_20_alg».proof.Proof.Gen.KernelIdeal.Frame
import proofs.«173281_g10677288698162_week1_w2_857_20_alg».proof.Proof.Gen.ReferenceIdeal
import proofs.«173281_g10677288698162_week1_w2_857_20_alg».proof.Proof.Gen.Pre_finite_inputs
import proofs.«173281_g10677288698162_week1_w2_857_20_alg».proof.Proof.Spec
import proofs.«173281_g10677288698162_week1_w2_857_20_alg».proof.Proof.Law
import proofs.«173281_g10677288698162_week1_w2_857_20_alg».proof.Proof.Finite
import proofs.«173281_g10677288698162_week1_w2_857_20_alg».proof.Proof.RefRun
import proofs.«173281_g10677288698162_week1_w2_857_20_alg».proof.Proof.RefValue
import proofs.«173281_g10677288698162_week1_w2_857_20_alg».proof.Proof.KPayload
import proofs.«173281_g10677288698162_week1_w2_857_20_alg».proof.Proof.KValue
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- From memories agreeing on the arguments, under the precondition, both programs end with the result at `G` of the
    arguments: the kernel by its value read off the frame run and the law at real entries, the reference as it stands. -/
theorem algebraic : Cert.algebraic_KernelIdeal_ReferenceIdeal := by
  intro m ρ m' ρ' hpre hagree
  have hfin := fun c => Cert.ActorSum.finite_of_pre _ _ (hpre c)
  refine ⟨_, Cert.KernelIdeal.ActorValue.run m ρ (fun c => (hfin c).1) (fun c => (hfin c).2), ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
